-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S1000x128 : Shape := ⟨2, ![1000, 128]⟩
abbrev S400x10000 : Shape := ⟨2, ![400, 10000]⟩
abbrev S400x128 : Shape := ⟨2, ![400, 128]⟩

abbrev nBuf : Space → Nat
  | .hbm => 12
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S10000x128, .bf16⟩
  | .hbm, ⟨8, _⟩ => ⟨S128x128, .bf16⟩
  | .hbm, ⟨9, _⟩ => ⟨S1x128, .f32⟩
  | .hbm, ⟨10, _⟩ => ⟨S10000x128, .bf16⟩
  | .hbm, ⟨11, _⟩ => ⟨S10000x128, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1x128, .f32⟩
  | .local _ .vmem, ⟨4, _⟩ => ⟨S1000x128, .bf16⟩
  | .local _ .vmem, ⟨5, _⟩ => ⟨S1000x128, .bf16⟩
  | .local _ .vmem, ⟨6, _⟩ => ⟨S400x10000, .f32⟩
  | .local _ .vmem, ⟨7, _⟩ => ⟨S400x10000, .f32⟩
  | .local _ .vmem, ⟨8, _⟩ => ⟨S10000x128, .bf16⟩
  | .local _ .vmem, ⟨9, _⟩ => ⟨S128x128, .bf16⟩
  | .local _ .vmem, ⟨10, _⟩ => ⟨S1x128, .f32⟩
  | .local _ .vmem, ⟨11, _⟩ => ⟨S400x128, .bf16⟩
  | .local _ .vmem, ⟨12, _⟩ => ⟨S400x128, .bf16⟩
  | .local _ .vmem, ⟨13, _⟩ => ⟨S400x10000, .f32⟩
  | .local _ .vmem, ⟨14, _⟩ => ⟨S400x10000, .f32⟩
  | .local _ .vmem, ⟨15, _⟩ => ⟨S10000x128, .bf16⟩
  | .local _ .vmem, ⟨16, _⟩ => ⟨S400x128, .f32⟩
  | .local _ .vmem, ⟨17, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S128_S1x128 : S128.ShapeCasts S1x128
  bitsLt_bf16_f32 : FTy.bits .bf16 < FTy.bits .f32
  inb_S1000x128_S1000x128_0_0 : ∀ a, (![0, 0] : Fin 2 → Nat) a + S1000x128.size a ≤ S1000x128.size a
  h_S1000x128 : 0 < S1000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  packedbf16_S1000x128_S1000x128_0_0 : (Rect.unit (s := S1000x128) ![0, 0] S1000x128.size inb_S1000x128_S1000x128_0_0).PackedRows (EltTy.packing .bf16)
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  shapeCasts_S128x128_S128x128 : S128x128.ShapeCasts S128x128
  broadcasts_S1x128_S400x128 : S1x128.Broadcasts S400x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  dot_S1000x128_S128x128_S1000x128_1_0_0_1_n_n_wf : DotDims.WF S1000x128 S128x128 S1000x128 [1] [0] [0] [1] [] []
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S10000x128.size a
  hwx0_3 : ∀ i : grid0.Coords, EltTy.bits .bf16 = 32 ∨ (Rect.block (s := S10000x128) S1000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .bf16 = 32 ∨ (Rect.block (s := S10000x128) S400x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x128.size a ≤ S10000x128.size a
  hwx2_2 : ∀ i : grid2.Coords, EltTy.bits .f32 = 32 ∨ (Rect.block (s := S10000x128) S400x128.size (cc2_transform_2 i) (hinb2_2 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S1000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v1) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v2) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v3) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v4) S400x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v4) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0) S400x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S1x128, .f32⟩
  | .hbm, ⟨16, _⟩ => ⟨S10000x128, .f32⟩
  | .hbm, ⟨17, _⟩ => ⟨S10000x128, .f32⟩
  | .hbm, ⟨18, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.MatmulAgg.lean ====
/-
  The aggregation product read at one entry over the extended reals: a block of 400 adjacency rows times a whole
  [10000,128] matrix, accumulated from zero, is at entry (r, c) the sum over k < 10000 of left (r, k) times right (k, c).
-/
import proofs.«154238_g27539330302397_cont_9to1_2131_2_alg».proof.Proof.Gen.KernelIdeal
import Idealize.ShloMosaic.Lib.ValueIdx
import Idealize.ShloMosaic.PureOps.Ideal.Laws

noncomputable section

namespace Cert.KernelIdeal.Mat

open Cert.KernelIdeal Cert.KernelIdeal.Gen Idealize.ShloMosaic Idealize.ShloMosaic.TcCoe

theorem agg_lhs0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem agg_lhs1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem agg_rhs0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem agg_rhs1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl
/-- Entry `(row of i, k)` of the left factor. -/
abbrev agg_l (i : S400x128.Idx) (k : Fin 10000) : S400x10000.Idx := fun a => match a with
  | ⟨0, _⟩ => ⟨(i 0).val, (i 0).isLt⟩
  | ⟨1, _⟩ => ⟨k.val, k.isLt⟩
/-- Entry `(k, column of i)` of the right factor. -/
abbrev agg_r (i : S400x128.Idx) (k : Fin 10000) : S10000x128.Idx := fun a => match a with
  | ⟨0, _⟩ => ⟨k.val, k.isLt⟩
  | ⟨1, _⟩ => ⟨(i 1).val, (i 1).isLt⟩
/-- Over the extended reals the product into a zero accumulator, read at `i`, is the row-by-column sum. -/
theorem agg_apply {φ₁ φ₂ : FTy} (A : FVec Ideal S400x10000 φ₁) (B : FVec Ideal S10000x128 φ₂) (i : S400x128.Idx) :
    matmul dot_S400x10000_S10000x128_S400x128_1_0_0_1_n_n none A B (constant S400x128 .f32 0x00000000#32) i = ∑ k : Fin 10000, A (agg_l i k) * B (agg_r i k) := by
  simp only [matmul]
  rw [Ideal.matmul_constant_zero_apply, ← Equiv.sum_comp (ValueIdx.contrEquiv1 dot_S400x10000_S10000x128_S400x128_1_0_0_1_n_n 10000 rfl rfl).symm]
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx i ((ValueIdx.contrEquiv1 dot_S400x10000_S10000x128_S400x128_1_0_0_1_n_n 10000 rfl rfl).symm k) = agg_l i k := funext fun a => Fin.ext (by
    match a with
    | ⟨0, _⟩ => exact agg_lhs0 _ _
    | ⟨1, _⟩ => exact (agg_lhs1 _ _).trans hk)
  have er : dot_S400x10000_S10000x128_S400x128_1_0_0_1_n_n.rhsIdx i ((ValueIdx.contrEquiv1 dot_S400x10000_S10000x128_S400x128_1_0_0_1_n_n 10000 rfl rfl).symm k) = agg_r i k := funext fun a => Fin.ext (by
    match a with
    | ⟨0, _⟩ => exact (agg_rhs0 _ _).trans hk
    | ⟨1, _⟩ => exact agg_rhs1 _ _)
  rw [el, er]

end Cert.KernelIdeal.Mat

end
-- ==== Proof.MatmulFeat.lean ====
/- The feature product read at one entry over the extended reals: 1000 feature rows times the first [128,128] weight matrix, accumulated from zero, is at (r, c) the sum over k < 128 of left (r, k) times right (k, c).
-/
import proofs.«154238_g27539330302397_cont_9to1_2131_2_alg».proof.Proof.Gen.KernelIdeal
import Idealize.ShloMosaic.Lib.ValueIdx
import Idealize.ShloMosaic.PureOps.Ideal.Laws

noncomputable section

namespace Cert.KernelIdeal.Mat

open Cert.KernelIdeal Cert.KernelIdeal.Gen Idealize.ShloMosaic Idealize.ShloMosaic.TcCoe

theorem feat_lhs0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
theorem feat_lhs1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
theorem feat_rhs0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
theorem feat_rhs1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl
/-- Entry `(row of i, k)` of the left factor. -/
abbrev feat_l (i : S1000x128.Idx) (k : Fin 128) : S1000x128.Idx := fun a => match a with
  | ⟨0, _⟩ => ⟨(i 0).val, (i 0).isLt⟩
  | ⟨1, _⟩ => ⟨k.val, k.isLt⟩
/-- Entry `(k, column of i)` of the right factor. -/
abbrev feat_r (i : S1000x128.Idx) (k : Fin 128) : S128x128.Idx := fun a => match a with
  | ⟨0, _⟩ => ⟨k.val, k.isLt⟩
  | ⟨1, _⟩ => ⟨(i 1).val, (i 1).isLt⟩
/-- Over the extended reals the product into a zero accumulator, read at `i`, is the row-by-column sum. -/
theorem feat_apply {φ₁ φ₂ : FTy} (A : FVec Ideal S1000x128 φ₁) (B : FVec Ideal S128x128 φ₂) (i : S1000x128.Idx) :
    matmul dot_S1000x128_S128x128_S1000x128_1_0_0_1_n_n none A B (constant S1000x128 .f32 0x00000000#32) i = ∑ k : Fin 128, A (feat_l i k) * B (feat_r i k) := by
  simp only [matmul]
  rw [Ideal.matmul_constant_zero_apply, ← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx i ((ValueIdx.contrEquiv1 dot_S1000x128_S128x128_S1000x128_1_0_0_1_n_n 128 rfl rfl).symm k) = feat_l i k := funext fun a => Fin.ext (by
    match a with
    | ⟨0, _⟩ => exact feat_lhs0 _ _
    | ⟨1, _⟩ => exact (feat_lhs1 _ _).trans hk)
  have er : dot_S1000x128_S128x128_S1000x128_1_0_0_1_n_n.rhsIdx i ((ValueIdx.contrEquiv1 dot_S1000x128_S128x128_S1000x128_1_0_0_1_n_n 128 rfl rfl).symm k) = feat_r i k := funext fun a => Fin.ext (by
    match a with
    | ⟨0, _⟩ => exact (feat_rhs0 _ _).trans hk
    | ⟨1, _⟩ => exact feat_rhs1 _ _)
  rw [el, er]

end Cert.KernelIdeal.Mat

end
-- ==== Proof.MatmulLin.lean ====
/- The second-layer product read at one entry over the extended reals: 400 hidden rows times the second [128,128] weight matrix, accumulated from zero, is at (r, c) the sum over k < 128 of left (r, k) times right (k, c).
-/
import proofs.«154238_g27539330302397_cont_9to1_2131_2_alg».proof.Proof.Gen.KernelIdeal
import Idealize.ShloMosaic.Lib.ValueIdx
import Idealize.ShloMosaic.PureOps.Ideal.Laws

noncomputable section

namespace Cert.KernelIdeal.Mat

open Cert.KernelIdeal Cert.KernelIdeal.Gen Idealize.ShloMosaic Idealize.ShloMosaic.TcCoe

theorem lin_lhs0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lin_lhs1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem lin_rhs0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem lin_rhs1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl
/-- Entry `(row of i, k)` of the left factor. -/
abbrev lin_l (i : S400x128.Idx) (k : Fin 128) : S400x128.Idx := fun a => match a with
  | ⟨0, _⟩ => ⟨(i 0).val, (i 0).isLt⟩
  | ⟨1, _⟩ => ⟨k.val, k.isLt⟩
/-- Entry `(k, column of i)` of the right factor. -/
abbrev lin_r (i : S400x128.Idx) (k : Fin 128) : S128x128.Idx := fun a => match a with
  | ⟨0, _⟩ => ⟨k.val, k.isLt⟩
  | ⟨1, _⟩ => ⟨(i 1).val, (i 1).isLt⟩
/-- Over the extended reals the product into a zero accumulator, read at `i`, is the row-by-column sum. -/
theorem lin_apply {φ₁ φ₂ : FTy} (A : FVec Ideal S400x128 φ₁) (B : FVec Ideal S128x128 φ₂) (i : S400x128.Idx) :
    matmul dot_S400x128_S128x128_S400x128_1_0_0_1_n_n none A B (constant S400x128 .f32 0x00000000#32) i = ∑ k : Fin 128, A (lin_l i k) * B (lin_r i k) := by
  simp only [matmul]
  rw [Ideal.matmul_constant_zero_apply, ← Equiv.sum_comp (ValueIdx.contrEquiv1 dot_S400x128_S128x128_S400x128_1_0_0_1_n_n 128 rfl rfl).symm]
  refine Finset.sum_congr rfl fun k _ => ?_
  have hk := ValueIdx.contrEquiv1_symm_val dot_S400x128_S128x128_S400x128_1_0_0_1_n_n 128 rfl rfl k
  have el : dot_S400x128_S128x128_S400x128_1_0_0_1_n_n.lhsIdx i ((ValueIdx.contrEquiv1 dot_S400x128_S128x128_S400x128_1_0_0_1_n_n 128 rfl rfl).symm k) = lin_l i k := funext fun a => Fin.ext (by
    match a with
    | ⟨0, _⟩ => exact lin_lhs0 _ _
    | ⟨1, _⟩ => exact (lin_lhs1 _ _).trans hk)
  have er : dot_S400x128_S128x128_S400x128_1_0_0_1_n_n.rhsIdx i ((ValueIdx.contrEquiv1 dot_S400x128_S128x128_S400x128_1_0_0_1_n_n 128 rfl rfl).symm k) = lin_r i k := funext fun a => Fin.ext (by
    match a with
    | ⟨0, _⟩ => exact (lin_rhs0 _ _).trans hk
    | ⟨1, _⟩ => exact lin_rhs1 _ _)
  rw [el, er]

end Cert.KernelIdeal.Mat

end
-- ==== Proof.Payloads.lean ====
/-
  What each kernel body stores, read at one entry over the extended reals (where a change of float format is the identity).
  Feature kernel: entry (r, c) of its block is  Σ_k X(r,k)·W(k,c) + b(0,c).
  First-layer kernel: entry (r, c) is  Σ_j max(Σ_k A(r,k)·U(k,j), 0)·W(j,c) + b(0,c).
  Second-layer kernel: entry (r, c) is  Σ_k A(r,k)·Z(k,c).
-/
import proofs.«154238_g27539330302397_cont_9to1_2131_2_alg».proof.Proof.Gen.KernelIdeal.Skeleton
import proofs.«154238_g27539330302397_cont_9to1_2131_2_alg».proof.Proof.MatmulAgg
import proofs.«154238_g27539330302397_cont_9to1_2131_2_alg».proof.Proof.MatmulFeat
import proofs.«154238_g27539330302397_cont_9to1_2131_2_alg».proof.Proof.MatmulLin
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Cert.KernelIdeal.Mat Idealize.ShloMosaic Idealize.ShloMosaic.TcCoe Idealize.ShloMosaic.ValueIdx

/-- Row 0, column of `i`, of a [1,128] bias row. -/
abbrev biasAt {n : Nat} (i : (⟨2, ![n, 128]⟩ : Shape).Idx) : S1x128.Idx := fun a => match a with
  | ⟨0, _⟩ => ⟨0, Nat.one_pos⟩
  | ⟨1, _⟩ => ⟨(i 1).val, (i 1).isLt⟩

/-- A length-128 bias as the [1,128] row the host's reshape makes of it. -/
abbrev rowOf (b : S128.Idx → EReal) : S1x128.Idx → EReal := shapeCast S1x128 b shapeCasts_S128_S1x128

/-- The second-layer kernel's stored value at an entry: the row of the adjacency block against the column of `Z`. -/
theorem l2_apply (A : Vec Ideal S400x10000 .f32) (Z : Vec Ideal S10000x128 .bf16) (i : S400x128.Idx) :
    k2_pay1 (F := Ideal) A Z i = ∑ k : Fin 10000, A (agg_l i k) * Z (agg_r i k) := by
  unfold k2_pay1
  rw [shapeCast_self]
  exact agg_apply _ _ i

/-- A [1,128] row broadcast over the rows of a block, read at an entry. -/
theorem bias_row_apply {n : Nat} (B : Vec Ideal S1x128 .f32) (h : S1x128.Broadcasts ⟨2, ![n, 128]⟩) (i : (⟨2, ![n, 128]⟩ : Shape).Idx) :
    broadcastTo (⟨2, ![n, 128]⟩ : Shape) B h i = B (biasAt i) :=
  broadcastTo_apply B h i (biasAt i) (fun a => match a with
    | ⟨0, _⟩ => by show 0 = if (1 : Nat) = 1 then 0 else _; rw [if_pos rfl]
    | ⟨1, _⟩ => by show (i 1).val = if (128 : Nat) = 1 then 0 else (i 1).val; rw [if_neg (by decide)])

/-- The feature kernel's stored value at an entry: the row of `X` against the column of `W`, plus the bias of that column. -/
theorem u1_apply (X : Vec Ideal S1000x128 .f32) (W : Vec Ideal S128x128 .f32) (B : Vec Ideal S1x128 .f32) (i : S1000x128.Idx) :
    k0_pay1 (F := Ideal) X W B i = (∑ k : Fin 128, X (feat_l i k) * W (feat_r i k)) + B (biasAt i) := by
  unfold k0_pay1
  rw [shapeCast_self, truncf_apply, addf_apply, feat_apply, bias_row_apply]
  rfl

/-- The first-layer kernel's stored value at an entry: the rectified aggregation's row against the column of `W`, plus the bias. -/
theorem l1_apply (A : Vec Ideal S400x10000 .f32) (Uh : Vec Ideal S10000x128 .bf16) (W : Vec Ideal S128x128 .bf16) (B : Vec Ideal S1x128 .f32) (i : S400x128.Idx) :
    k1_pay1 (F := Ideal) A Uh W B i
      = (∑ j : Fin 128, max (∑ k : Fin 10000, A (agg_l (lin_l i j) k) * Uh (agg_r (lin_l i j) k)) (Ideal.ofBits .f32 0x00000000#32) * W (lin_r i j)) + B (biasAt i) := by
  unfold k1_pay1
  simp only [shapeCast_self]
  rw [truncf_apply, addf_apply, lin_apply, bias_row_apply]
  refine congrArg (· + B (biasAt i)) (Finset.sum_congr rfl fun j _ => ?_)
  rw [truncf_apply, maximumf_apply, agg_apply, broadcast_apply]
  rfl

end Cert.KernelIdeal.Pay

end
-- ==== Proof.Features.lean ====
/-
  The feature region, read as values over the extended reals. At grid point t the body multiplies rows
  1000 t … 1000 t + 999 of the features X by the whole weight matrix W, adds the bias row to every row, and writes rows
  1000 t … 1000 t + 999 of the output; the 10 blocks tile the output, so the array the region leaves is X · W + b, entry
  by entry — for any contents `V` the region is entered from.
-/
import proofs.«154238_g27539330302397_cont_9to1_2131_2_alg».proof.Proof.Gen.KernelIdeal.Frame
import proofs.«154238_g27539330302397_cont_9to1_2131_2_alg».proof.Proof.Gen.ReferenceIdeal.Read
import proofs.«154238_g27539330302397_cont_9to1_2131_2_alg».proof.Proof.Payloads
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Features

open Cert.KernelIdeal Cert.KernelIdeal.Gen Cert.KernelIdeal.Mat Cert.KernelIdeal.Pay

variable (V : (c : Dev nD) → (b : Ref sig .tc) → Buf (Elt Ideal) ((c : Thread nD τ).loc b))

theorem hz : (![0, 0] : Fin 2 → Nat) = fun _ => 0 := funext fun a => by fin_cases a <;> rfl

/-- Entry (r, c) of `X · W + b`: the sum over k of X(r,k)·W(k,c), plus the bias row's entry in column c. -/
def affineXW (X : S10000x128.Idx → EReal) (W : S128x128.Idx → EReal) (Bv : S1x128.Idx → EReal) : S10000x128.Idx → EReal :=
  fun i => (∑ k : Fin 128, X (Cert.ReferenceIdeal.Read.lidx_main_v0 i k) * W (Cert.ReferenceIdeal.Read.ridx_main_v0 i k)) + Bv (biasAt i)

/-- The printed index maps over the grid: point `t` takes feature row block `t`, the whole weight matrix and bias row, and writes row block `t`. -/
theorem idx_u1 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature block at point `t` is rows `1000 t … 1000 t + 999` of the features. -/
theorem xBlk_apply (c : Dev nD) (t : Fin cfg0.N) (y : S1000x128.Idx) (i : S10000x128.Idx)
    (h0 : (i 0).val = t.val * 1000 + (y 0).val) (h1 : (i 1).val = (y 1).val) :
    (iblk0 V c 0 t : Vec Ideal S1000x128 .f32) y = (V c main_arg0 : S10000x128.Idx → EReal) i := by
  obtain ⟨e0, e1, -⟩ := idx_u1 t
  unfold iblk0
  rw [View.read_apply]
  show V c main_arg0 _ = V c main_arg0 _
  refine congrArg _ (funext fun a => Fin.ext ?_)
  match a with
  | ⟨0, _⟩ => show win0_0.index t 0 * 1000 + 1 * (y 0).val = (i 0).val; rw [e0, h0]; omega
  | ⟨1, _⟩ => show win0_0.index t 1 * 128 + 1 * (y 1).val = (i 1).val; rw [e1, h1]; omega

/-- The weight window's one block is the whole weight matrix. -/
theorem wBlk_apply (c : Dev nD) (t : Fin cfg0.N) (y : S128x128.Idx) (i : S128x128.Idx)
    (h0 : (i 0).val = (y 0).val) (h1 : (i 1).val = (y 1).val) :
    (iblk0 V c 1 t : Vec Ideal S128x128 .f32) y = (V c main_arg2 : S128x128.Idx → EReal) i := by
  obtain ⟨-, -, e2, e3, -⟩ := idx_u1 t
  unfold iblk0
  rw [View.read_apply]
  show V c main_arg2 _ = V c main_arg2 _
  refine congrArg _ (funext fun a => Fin.ext ?_)
  match a with
  | ⟨0, _⟩ => show win0_1.index t 0 * 128 + 1 * (y 0).val = (i 0).val; rw [e2, h0]; omega
  | ⟨1, _⟩ => show win0_1.index t 1 * 128 + 1 * (y 1).val = (i 1).val; rw [e3, h1]; omega

/-- The bias window's one block is the whole bias row. -/
theorem bBlk_apply (c : Dev nD) (t : Fin cfg0.N) (y : S1x128.Idx) (i : S1x128.Idx)
    (h0 : (i 0).val = (y 0).val) (h1 : (i 1).val = (y 1).val) :
    (iblk0 V c 2 t : Vec Ideal S1x128 .f32) y = (V c main_call0_v0 : S1x128.Idx → EReal) i := by
  obtain ⟨-, -, -, -, e4, e5, -⟩ := idx_u1 t
  unfold iblk0
  rw [View.read_apply]
  show V c main_call0_v0 _ = V c main_call0_v0 _
  refine congrArg _ (funext fun a => Fin.ext ?_)
  match a with
  | ⟨0, _⟩ => show win0_2.index t 0 * 1 + 1 * (y 0).val = (i 0).val; rw [e4, h0]; omega
  | ⟨1, _⟩ => show win0_2.index t 1 * 128 + 1 * (y 1).val = (i 1).val; rw [e5, h1]; omega

/-- What point `t` writes back is row block `t` of `X · W + b`. -/
theorem flushed_u1 (c : Dev nD) (t : Fin cfg0.N) :
    (dat0 V c).flushed 3 t = ((cfg0.win 3).blk t).view.read (Elt Ideal) (affineXW (V c main_arg0) (V c main_arg2) (V c main_call0_v0)) := by
  show (cfg0.win 3).cut (grid0.coords t) ((dat0 V c).after 3 t) = _
  rw [after0_3]
  unfold out0_3
  rw [View.canon_unit_zero hz]
  simp only [View.ld_unit_zero (S := S1000x128) hz, View.ld_unit_zero (S := S128x128) hz, View.ld_unit_zero (S := S1x128) hz]
  obtain ⟨-, -, -, -, -, -, e6, e7⟩ := idx_u1 t
  funext j
  show k0_pay1 (iblk0 V c 0 t) (iblk0 V c 1 t) (iblk0 V c 2 t) j
    = affineXW (V c main_arg0) (V c main_arg2) (V c main_call0_v0) (((cfg0.win 3).blk t).view.emb j)
  have hj0 : ((((cfg0.win 3).blk t).view.emb j) 0).val = t.val * 1000 + (j 0).val := by
    show win0_3.index t 0 * 1000 + 1 * (j 0).val = _; rw [e6]; omega
  have hj1 : ((((cfg0.win 3).blk t).view.emb j) 1).val = (j 1).val := by
    show win0_3.index t 1 * 128 + 1 * (j 1).val = _; rw [e7]; omega
  rw [u1_apply]
  unfold affineXW
  rw [bBlk_apply V c t (biasAt j) (biasAt (((cfg0.win 3).blk t).view.emb j)) rfl hj1]
  refine congrArg (· + _) (Finset.sum_congr rfl fun k _ => ?_)
  rw [xBlk_apply V c t (feat_l j k) (Cert.ReferenceIdeal.Read.lidx_main_v0 (((cfg0.win 3).blk t).view.emb j) k) hj0 rfl,
    wBlk_apply V c t (feat_r j k) (Cert.ReferenceIdeal.Read.ridx_main_v0 (((cfg0.win 3).blk t).view.emb j) k) rfl hj1]

/-- An index of the output lies in point `t`'s block iff each coordinate lies in the block's range on its axis. -/
theorem mem_blk_u1 (t : Fin cfg0.N) (i : S10000x128.Idx) :
    i ∈ ((cfg0.win 3).blk t).view.set ↔ ∀ a : Fin 2, win0_3.index t a * S1000x128.size a ≤ (i a).val ∧ (i a).val < win0_3.index t a * S1000x128.size a + S1000x128.size a := by
  show i ∈ ((View.whole main_call0_v1).slice (win0_3.rect t)).set ↔ _
  rw [View.set_slice_whole, Rect.mem_set_unit]
  exact Iff.rfl

/-- The 10 row blocks tile the output (row r lies in block r / 1000), so after the last point the array is `X · W + b`. -/
theorem final_u1 (c : Dev nD) : (dat0 V c).arrAt 3 cfg0.N = affineXW (V c main_arg0) (V c main_arg2) (V c main_call0_v0) :=
  (dat0 V c).arrAt_eq_of_cover 3 _ (fun t _ => flushed_u1 V c t) fun i => by
    have hi0 : (i 0).val < 10000 := (i 0).isLt
    have hi1 : (i 1).val < 128 := (i 1).isLt
    have hN : cfg0.N = 10 := N_0
    obtain ⟨t, ht⟩ : ∃ t : Fin cfg0.N, t.val = (i 0).val / 1000 := ⟨⟨(i 0).val / 1000, by rw [hN]; omega⟩, rfl⟩
    refine ⟨t, flush0_3 t, ?_⟩
    rw [mem_blk_u1]
    obtain ⟨-, -, -, -, -, -, e6, e7⟩ := idx_u1 t
    intro a
    match a with
    | ⟨0, _⟩ => show win0_3.index t 0 * 1000 ≤ (i 0).val ∧ (i 0).val < win0_3.index t 0 * 1000 + 1000; rw [e6]; omega
    | ⟨1, _⟩ => show win0_3.index t 1 * 128 ≤ (i 1).val ∧ (i 1).val < win0_3.index t 1 * 128 + 128; rw [e7]; omega

end Cert.KernelIdeal.Features

end
-- ==== Proof.Layer1.lean ====
/-
  The first layer's region, read as values over the extended reals. At grid point t the body multiplies rows
  400 t … 400 t + 399 of the adjacency A by the whole of U, rectifies, multiplies by the whole weight matrix W, adds the
  bias row to every row, and writes rows 400 t … 400 t + 399 of the output; the 25 blocks tile the output, so the array the
  region leaves is relu(A · U) · W + b, entry by entry — for any contents `V` the region is entered from.
-/
import proofs.«154238_g27539330302397_cont_9to1_2131_2_alg».proof.Proof.Gen.KernelIdeal.Frame
import proofs.«154238_g27539330302397_cont_9to1_2131_2_alg».proof.Proof.Gen.ReferenceIdeal.Read
import proofs.«154238_g27539330302397_cont_9to1_2131_2_alg».proof.Proof.Payloads
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Layer1

open Cert.KernelIdeal Cert.KernelIdeal.Gen Cert.KernelIdeal.Mat Cert.KernelIdeal.Pay

variable (V : (c : Dev nD) → (b : Ref sig .tc) → Buf (Elt Ideal) ((c : Thread nD τ).loc b))

theorem hz : (![0, 0] : Fin 2 → Nat) = fun _ => 0 := funext fun a => by fin_cases a <;> rfl

/-- Entry (r, c) of `relu(A · U) · W + b`: the sum over j of max(Σ_k A(r,k)·U(k,j), 0)·W(j,c), plus the bias row's entry in column c. -/
def layerAUW (A : S10000x10000.Idx → EReal) (Uh : S10000x128.Idx → EReal) (W : S128x128.Idx → EReal) (Bv : S1x128.Idx → EReal) : S10000x128.Idx → EReal :=
  fun i => (∑ j : Fin 128,
      max (∑ k : Fin 10000, A (Cert.ReferenceIdeal.Read.lidx_main_v4 (Cert.ReferenceIdeal.Read.lidx_main_v6 i j) k)
          * Uh (Cert.ReferenceIdeal.Read.ridx_main_v4 (Cert.ReferenceIdeal.Read.lidx_main_v6 i j) k)) (Ideal.ofBits .f32 0x00000000#32)
        * W (Cert.ReferenceIdeal.Read.ridx_main_v6 i j)) + Bv (biasAt i)

/-- The printed index maps over the grid: point `t` takes adjacency row block `t`, the whole of U, of the weight matrix and of the bias row, and writes row block `t`. -/
theorem idx_l1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The adjacency block at point `t` is rows `400 t … 400 t + 399` of the adjacency. -/
theorem adjBlk_apply (c : Dev nD) (t : Fin cfg1.N) (y : S400x10000.Idx) (i : S10000x10000.Idx)
    (h0 : (i 0).val = t.val * 400 + (y 0).val) (h1 : (i 1).val = (y 1).val) :
    (iblk1 V c 0 t : Vec Ideal S400x10000 .f32) y = (V c main_arg1 : S10000x10000.Idx → EReal) i := by
  obtain ⟨e0, e1, -⟩ := idx_l1 t
  unfold iblk1
  rw [View.read_apply]
  show V c main_arg1 _ = V c main_arg1 _
  refine congrArg _ (funext fun a => Fin.ext ?_)
  match a with
  | ⟨0, _⟩ => show win1_0.index t 0 * 400 + 1 * (y 0).val = (i 0).val; rw [e0, h0]; omega
  | ⟨1, _⟩ => show win1_0.index t 1 * 10000 + 1 * (y 1).val = (i 1).val; rw [e1, h1]; omega

/-- The second operand's one block is the whole of U. -/
theorem uBlk_apply (c : Dev nD) (t : Fin cfg1.N) (y : S10000x128.Idx) (i : S10000x128.Idx)
    (h0 : (i 0).val = (y 0).val) (h1 : (i 1).val = (y 1).val) :
    (iblk1 V c 1 t : Vec Ideal S10000x128 .bf16) y = (V c main_call0_v1 : S10000x128.Idx → EReal) i := by
  obtain ⟨-, -, e2, e3, -⟩ := idx_l1 t
  unfold iblk1
  rw [View.read_apply]
  show V c main_call0_v1 _ = V c main_call0_v1 _
  refine congrArg _ (funext fun a => Fin.ext ?_)
  match a with
  | ⟨0, _⟩ => show win1_1.index t 0 * 10000 + 1 * (y 0).val = (i 0).val; rw [e2, h0]; omega
  | ⟨1, _⟩ => show win1_1.index t 1 * 128 + 1 * (y 1).val = (i 1).val; rw [e3, h1]; omega

/-- The weight window's one block is the whole weight matrix. -/
theorem wBlk_apply (c : Dev nD) (t : Fin cfg1.N) (y : S128x128.Idx) (i : S128x128.Idx)
    (h0 : (i 0).val = (y 0).val) (h1 : (i 1).val = (y 1).val) :
    (iblk1 V c 2 t : Vec Ideal S128x128 .bf16) y = (V c main_call0_v2 : S128x128.Idx → EReal) i := by
  obtain ⟨-, -, -, -, e4, e5, -⟩ := idx_l1 t
  unfold iblk1
  rw [View.read_apply]
  show V c main_call0_v2 _ = V c main_call0_v2 _
  refine congrArg _ (funext fun a => Fin.ext ?_)
  match a with
  | ⟨0, _⟩ => show win1_2.index t 0 * 128 + 1 * (y 0).val = (i 0).val; rw [e4, h0]; omega
  | ⟨1, _⟩ => show win1_2.index t 1 * 128 + 1 * (y 1).val = (i 1).val; rw [e5, h1]; omega

/-- The bias window's one block is the whole bias row. -/
theorem bBlk_apply (c : Dev nD) (t : Fin cfg1.N) (y : S1x128.Idx) (i : S1x128.Idx)
    (h0 : (i 0).val = (y 0).val) (h1 : (i 1).val = (y 1).val) :
    (iblk1 V c 3 t : Vec Ideal S1x128 .f32) y = (V c main_call0_v3 : S1x128.Idx → EReal) i := by
  obtain ⟨-, -, -, -, -, -, e6, e7, -⟩ := idx_l1 t
  unfold iblk1
  rw [View.read_apply]
  show V c main_call0_v3 _ = V c main_call0_v3 _
  refine congrArg _ (funext fun a => Fin.ext ?_)
  match a with
  | ⟨0, _⟩ => show win1_3.index t 0 * 1 + 1 * (y 0).val = (i 0).val; rw [e6, h0]; omega
  | ⟨1, _⟩ => show win1_3.index t 1 * 128 + 1 * (y 1).val = (i 1).val; rw [e7, h1]; omega

/-- What point `t` writes back is row block `t` of `relu(A · U) · W + b`. -/
theorem flushed_l1 (c : Dev nD) (t : Fin cfg1.N) :
    (dat1 V c).flushed 4 t = ((cfg1.win 4).blk t).view.read (Elt Ideal)
      (layerAUW (V c main_arg1) (V c main_call0_v1) (V c main_call0_v2) (V c main_call0_v3)) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x128) hz, View.ld_unit_zero (S := S128x128) hz, View.ld_unit_zero (S := S1x128) hz]
  obtain ⟨-, -, -, -, -, -, -, -, e8, e9⟩ := idx_l1 t
  funext j
  show k1_pay1 (iblk1 V c 0 t) (iblk1 V c 1 t) (iblk1 V c 2 t) (iblk1 V c 3 t) j
    = layerAUW (V c main_arg1) (V c main_call0_v1) (V c main_call0_v2) (V c main_call0_v3) (((cfg1.win 4).blk t).view.emb j)
  have hj0 : ((((cfg1.win 4).blk t).view.emb j) 0).val = t.val * 400 + (j 0).val := by
    show win1_4.index t 0 * 400 + 1 * (j 0).val = _; rw [e8]; omega
  have hj1 : ((((cfg1.win 4).blk t).view.emb j) 1).val = (j 1).val := by
    show win1_4.index t 1 * 128 + 1 * (j 1).val = _; rw [e9]; omega
  rw [l1_apply]
  unfold layerAUW
  rw [bBlk_apply V c t (biasAt j) (biasAt (((cfg1.win 4).blk t).view.emb j)) rfl hj1]
  refine congrArg (· + _) (Finset.sum_congr rfl fun q _ => ?_)
  rw [wBlk_apply V c t (lin_r j q) (Cert.ReferenceIdeal.Read.ridx_main_v6 (((cfg1.win 4).blk t).view.emb j) q) rfl hj1]
  refine congrArg (fun s => max s _ * _) (Finset.sum_congr rfl fun k _ => ?_)
  rw [adjBlk_apply V c t (agg_l (lin_l j q) k)
      (Cert.ReferenceIdeal.Read.lidx_main_v4 (Cert.ReferenceIdeal.Read.lidx_main_v6 (((cfg1.win 4).blk t).view.emb j) q) k) hj0 rfl,
    uBlk_apply V c t (agg_r (lin_l j q) k)
      (Cert.ReferenceIdeal.Read.ridx_main_v4 (Cert.ReferenceIdeal.Read.lidx_main_v6 (((cfg1.win 4).blk t).view.emb j) q) k) rfl rfl]

/-- An index of the output lies in point `t`'s block iff each coordinate lies in the block's range on its axis. -/
theorem mem_blk_l1 (t : Fin cfg1.N) (i : S10000x128.Idx) :
    i ∈ ((cfg1.win 4).blk t).view.set ↔ ∀ a : Fin 2, win1_4.index t a * S400x128.size a ≤ (i a).val ∧ (i a).val < win1_4.index t a * S400x128.size a + S400x128.size a := by
  show i ∈ ((View.whole main_call0_v4).slice (win1_4.rect t)).set ↔ _
  rw [View.set_slice_whole, Rect.mem_set_unit]
  exact Iff.rfl

/-- The 25 row blocks tile the output (row r lies in block r / 400), so after the last point the array is `relu(A · U) · W + b`. -/
theorem final_l1 (c : Dev nD) : (dat1 V c).arrAt 4 cfg1.N
    = layerAUW (V c main_arg1) (V c main_call0_v1) (V c main_call0_v2) (V c main_call0_v3) :=
  (dat1 V c).arrAt_eq_of_cover 4 _ (fun t _ => flushed_l1 V c t) fun i => by
    have hi0 : (i 0).val < 10000 := (i 0).isLt
    have hi1 : (i 1).val < 128 := (i 1).isLt
    have hN : cfg1.N = 25 := N_1
    obtain ⟨t, ht⟩ : ∃ t : Fin cfg1.N, t.val = (i 0).val / 400 := ⟨⟨(i 0).val / 400, by rw [hN]; omega⟩, rfl⟩
    refine ⟨t, flush1_4 t, ?_⟩
    rw [mem_blk_l1]
    obtain ⟨-, -, -, -, -, -, -, -, e8, e9⟩ := idx_l1 t
    intro a
    match a with
    | ⟨0, _⟩ => show win1_4.index t 0 * 400 ≤ (i 0).val ∧ (i 0).val < win1_4.index t 0 * 400 + 400; rw [e8]; omega
    | ⟨1, _⟩ => show win1_4.index t 1 * 128 ≤ (i 1).val ∧ (i 1).val < win1_4.index t 1 * 128 + 128; rw [e9]; omega

end Cert.KernelIdeal.Layer1

end
-- ==== Proof.Layer2.lean ====
/-
  The output layer's region, read as values over the extended reals. At grid point t the body multiplies rows
  400 t … 400 t + 399 of the adjacency A by the whole of Z and writes rows 400 t … 400 t + 399 of the result; the 25
  blocks tile the result, so the array the region leaves is A · Z, entry by entry — for any contents `V` the region is
  entered from.
-/
import proofs.«154238_g27539330302397_cont_9to1_2131_2_alg».proof.Proof.Gen.KernelIdeal.Frame
import proofs.«154238_g27539330302397_cont_9to1_2131_2_alg».proof.Proof.Gen.ReferenceIdeal.Read
import proofs.«154238_g27539330302397_cont_9to1_2131_2_alg».proof.Proof.Payloads
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Layer2

open Cert.KernelIdeal Cert.KernelIdeal.Gen Cert.KernelIdeal.Mat Cert.KernelIdeal.Pay

variable (V : (c : Dev nD) → (b : Ref sig .tc) → Buf (Elt Ideal) ((c : Thread nD τ).loc b))

theorem hz : (![0, 0] : Fin 2 → Nat) = fun _ => 0 := funext fun a => by fin_cases a <;> rfl

/-- Entry (r, c) of the product `A · Z` of the adjacency with a [10000,128] matrix: the sum over k of A(r,k)·Z(k,c). -/
def prodAZ (A : S10000x10000.Idx → EReal) (Z : S10000x128.Idx → EReal) : S10000x128.Idx → EReal :=
  fun i => ∑ k : Fin 10000, A (Cert.ReferenceIdeal.Read.lidx_main_v10 i k) * Z (Cert.ReferenceIdeal.Read.ridx_main_v10 i k)

/-- The printed index maps over the grid: point `t` takes adjacency row block `t`, the whole of `Z`, and writes row block `t`. -/
theorem idx_l2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The adjacency block at point `t` is rows `400 t … 400 t + 399` of the adjacency. -/
theorem adjBlk_apply (c : Dev nD) (t : Fin cfg2.N) (y : S400x10000.Idx) (i : S10000x10000.Idx)
    (h0 : (i 0).val = t.val * 400 + (y 0).val) (h1 : (i 1).val = (y 1).val) :
    (iblk2 V c 0 t : Vec Ideal S400x10000 .f32) y = (V c main_arg1 : S10000x10000.Idx → EReal) i := by
  obtain ⟨e0, e1, -⟩ := idx_l2 t
  unfold iblk2
  rw [View.read_apply]
  show V c main_arg1 _ = V c main_arg1 _
  refine congrArg _ (funext fun a => Fin.ext ?_)
  match a with
  | ⟨0, _⟩ => show win2_0.index t 0 * 400 + 1 * (y 0).val = (i 0).val; rw [e0, h0]; omega
  | ⟨1, _⟩ => show win2_0.index t 1 * 10000 + 1 * (y 1).val = (i 1).val; rw [e1, h1]; omega

/-- The second operand's one block is the whole of `Z`. -/
theorem zBlk_apply (c : Dev nD) (t : Fin cfg2.N) (y : S10000x128.Idx) (i : S10000x128.Idx)
    (h0 : (i 0).val = (y 0).val) (h1 : (i 1).val = (y 1).val) :
    (iblk2 V c 1 t : Vec Ideal S10000x128 .bf16) y = (V c main_call0_v4 : S10000x128.Idx → EReal) i := by
  obtain ⟨-, -, e2, e3, -⟩ := idx_l2 t
  unfold iblk2
  rw [View.read_apply]
  show V c main_call0_v4 _ = V c main_call0_v4 _
  refine congrArg _ (funext fun a => Fin.ext ?_)
  match a with
  | ⟨0, _⟩ => show win2_1.index t 0 * 10000 + 1 * (y 0).val = (i 0).val; rw [e2, h0]; omega
  | ⟨1, _⟩ => show win2_1.index t 1 * 128 + 1 * (y 1).val = (i 1).val; rw [e3, h1]; omega

/-- What point `t` writes back is row block `t` of `A · Z`. -/
theorem flushed_l2 (c : Dev nD) (t : Fin cfg2.N) :
    (dat2 V c).flushed 2 t = ((cfg2.win 2).blk t).view.read (Elt Ideal) (prodAZ (V c main_arg1) (V c main_call0_v4)) := by
  show (cfg2.win 2).cut (grid2.coords t) ((dat2 V c).after 2 t) = _
  rw [after2_2]
  unfold out2_2
  rw [View.canon_unit_zero hz]
  simp only [View.ld_unit_zero (S := S400x10000) hz, View.ld_unit_zero (S := S10000x128) hz]
  obtain ⟨-, -, -, -, e4, e5⟩ := idx_l2 t
  funext j
  show k2_pay1 (iblk2 V c 0 t) (iblk2 V c 1 t) j = prodAZ (V c main_arg1) (V c main_call0_v4) (((cfg2.win 2).blk t).view.emb j)
  have hj0 : ((((cfg2.win 2).blk t).view.emb j) 0).val = t.val * 400 + (j 0).val := by
    show win2_2.index t 0 * 400 + 1 * (j 0).val = _; rw [e4]; omega
  have hj1 : ((((cfg2.win 2).blk t).view.emb j) 1).val = (j 1).val := by
    show win2_2.index t 1 * 128 + 1 * (j 1).val = _; rw [e5]; omega
  rw [l2_apply]
  unfold prodAZ
  refine Finset.sum_congr rfl fun k _ => ?_
  rw [adjBlk_apply V c t (agg_l j k) (Cert.ReferenceIdeal.Read.lidx_main_v10 (((cfg2.win 2).blk t).view.emb j) k) hj0 rfl,
    zBlk_apply V c t (agg_r j k) (Cert.ReferenceIdeal.Read.ridx_main_v10 (((cfg2.win 2).blk t).view.emb j) k) rfl hj1]

/-- An index of the result lies in point `t`'s block iff each coordinate lies in the block's range on its axis. -/
theorem mem_blk_l2 (t : Fin cfg2.N) (i : S10000x128.Idx) :
    i ∈ ((cfg2.win 2).blk t).view.set ↔ ∀ a : Fin 2, win2_2.index t a * S400x128.size a ≤ (i a).val ∧ (i a).val < win2_2.index t a * S400x128.size a + S400x128.size a := by
  show i ∈ ((View.whole main_v0).slice (win2_2.rect t)).set ↔ _
  rw [View.set_slice_whole, Rect.mem_set_unit]
  exact Iff.rfl

/-- The 25 row blocks tile the result (row r lies in block r / 400), so after the last point the array is `A · Z`. -/
theorem final_l2 (c : Dev nD) : (dat2 V c).arrAt 2 cfg2.N = prodAZ (V c main_arg1) (V c main_call0_v4) :=
  (dat2 V c).arrAt_eq_of_cover 2 _ (fun t _ => flushed_l2 V c t) fun i => by
    have hi0 : (i 0).val < 10000 := (i 0).isLt
    have hi1 : (i 1).val < 128 := (i 1).isLt
    have hN : cfg2.N = 25 := N_2
    obtain ⟨t, ht⟩ : ∃ t : Fin cfg2.N, t.val = (i 0).val / 400 := ⟨⟨(i 0).val / 400, by rw [hN]; omega⟩, rfl⟩
    refine ⟨t, flush2_2 t, ?_⟩
    rw [mem_blk_l2]
    obtain ⟨-, -, -, -, e4, e5⟩ := idx_l2 t
    intro a
    match a with
    | ⟨0, _⟩ => show win2_2.index t 0 * 400 ≤ (i 0).val ∧ (i 0).val < win2_2.index t 0 * 400 + 400; rw [e4]; omega
    | ⟨1, _⟩ => show win2_2.index t 1 * 128 ≤ (i 1).val ∧ (i 1).val < win2_2.index t 1 * 128 + 128; rw [e5]; omega

end Cert.KernelIdeal.Layer2

end
-- ==== Proof.Net.lean ====
/-
  The kernel's result as one function of its six arguments, over the extended reals.
  The three regions run in order on one core. Reading the buffer contents at each region boundary:
    U = X · W₁ + b₁                (region 0, from the features, the first weights and the bias row the host reshaped),
    Z = relu(A · U) · W₂ + b₂      (region 1, from the adjacency, U, the second weights the host converted and its bias row),
    out = A · Z                    (region 2).
  Each region's array is its closed form of the contents it is entered from; what it is entered from is read back through
  the host operations and the earlier regions to the launch memory. The run then ends with the result buffer at `out`.
-/
import proofs.«154238_g27539330302397_cont_9to1_2131_2_alg».proof.Proof.KernelRun
import proofs.«154238_g27539330302397_cont_9to1_2131_2_alg».proof.Proof.Features
import proofs.«154238_g27539330302397_cont_9to1_2131_2_alg».proof.Proof.Layer1
import proofs.«154238_g27539330302397_cont_9to1_2131_2_alg».proof.Proof.Layer2
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.Net

open Cert.KernelIdeal Cert.KernelIdeal.Gen Cert.KernelIdeal.Pay
open Cert.KernelIdeal.Features Cert.KernelIdeal.Layer1 Cert.KernelIdeal.Layer2

variable (m : (ℓ : Loc nD τ sig) → Buf (Elt Ideal) ℓ) (ρ : Dev nD → PrngReg)

/-- U = X · W₁ + b₁ of the launch contents. -/
def hidden (c : Dev nD) : S10000x128.Idx → EReal :=
  affineXW (m ((c : Thread nD τ).loc main_arg0)) (m ((c : Thread nD τ).loc main_arg2)) (rowOf (m ((c : Thread nD τ).loc main_arg3)))

/-- Z = relu(A · U) · W₂ + b₂ of the launch contents. -/
def layer1 (c : Dev nD) : S10000x128.Idx → EReal :=
  layerAUW (m ((c : Thread nD τ).loc main_arg1)) (hidden m c) (m ((c : Thread nD τ).loc main_arg4)) (rowOf (m ((c : Thread nD τ).loc main_arg5)))

/-- out = A · Z of the launch contents. -/
def result (c : Dev nD) : S10000x128.Idx → EReal :=
  prodAZ (m ((c : Thread nD τ).loc main_arg1)) (layer1 m c)

/-! ## Region 0 is entered from the launch contents, the first bias reshaped -/

theorem V1_x (c : Dev nD) : V1 m ρ c main_arg0 = m ((c : Thread nD τ).loc main_arg0) := by
  show StableHlo.after hostOps0 (W0 m ρ c) (Proc.devRef .tc main_arg0) = _
  after_results <;> rfl
theorem V1_w (c : Dev nD) : V1 m ρ c main_arg2 = m ((c : Thread nD τ).loc main_arg2) := by
  show StableHlo.after hostOps0 (W0 m ρ c) (Proc.devRef .tc main_arg2) = _
  after_results <;> rfl
theorem V1_b (c : Dev nD) : V1 m ρ c main_call0_v0 = rowOf (m ((c : Thread nD τ).loc main_arg3)) := by
  show StableHlo.after hostOps0 (W0 m ρ c) (Proc.devRef .tc main_call0_v0) = _
  after_results <;> rfl

/-- Region 0 leaves U in its output array. -/
theorem after_region0 (c : Dev nD) : (dat0 (V1 m ρ) c).arrAt 3 cfg0.N = hidden m c := by
  rw [final_u1 (V1 m ρ) c, V1_x, V1_w, V1_b]; rfl

/-! ## Region 1 is entered from the adjacency, U, the second weights converted and the second bias reshaped -/

theorem V3_a (c : Dev nD) : V3 m ρ c main_arg1 = m ((c : Thread nD τ).loc main_arg1) := by
  have h1 : V3 m ρ c main_arg1 = W2 m ρ c (Proc.devRef .tc main_arg1) := by
    show StableHlo.after hostOps1 (W2 m ρ c) (Proc.devRef .tc main_arg1) = _
    after_results <;> rfl
  rw [h1, W2_of_ne m ρ c main_arg1 (by decide)]
  show StableHlo.after hostOps0 (W0 m ρ c) (Proc.devRef .tc main_arg1) = _
  after_results <;> rfl
theorem V3_u (c : Dev nD) : V3 m ρ c main_call0_v1 = hidden m c := by
  have h1 : V3 m ρ c main_call0_v1 = W2 m ρ c (Proc.devRef .tc main_call0_v1) := by
    show StableHlo.after hostOps1 (W2 m ρ c) (Proc.devRef .tc main_call0_v1) = _
    after_results <;> rfl
  rw [h1]
  exact (W2_arr m ρ c 3).trans (after_region0 m ρ c)
theorem V3_w (c : Dev nD) : V3 m ρ c main_call0_v2 = m ((c : Thread nD τ).loc main_arg4) := by
  -- the host's conversion to the narrower format is the identity on extended reals
  have h1 : V3 m ρ c main_call0_v2 = W2 m ρ c (Proc.devRef .tc main_arg4) := by
    show StableHlo.after hostOps1 (W2 m ρ c) (Proc.devRef .tc main_call0_v2) = _
    after_results <;> rfl
  rw [h1, W2_of_ne m ρ c main_arg4 (by decide)]
  show StableHlo.after hostOps0 (W0 m ρ c) (Proc.devRef .tc main_arg4) = _
  after_results <;> rfl
theorem V3_b (c : Dev nD) : V3 m ρ c main_call0_v3 = rowOf (m ((c : Thread nD τ).loc main_arg5)) := by
  have h1 : V3 m ρ c main_call0_v3 = rowOf (W2 m ρ c (Proc.devRef .tc main_arg5)) := by
    show StableHlo.after hostOps1 (W2 m ρ c) (Proc.devRef .tc main_call0_v3) = _
    after_results <;> rfl
  rw [h1, W2_of_ne m ρ c main_arg5 (by decide)]
  have h2 : W1 m ρ c (Proc.devRef .tc main_arg5) = m ((c : Thread nD τ).loc main_arg5) := by
    show StableHlo.after hostOps0 (W0 m ρ c) (Proc.devRef .tc main_arg5) = _
    after_results <;> rfl
  rw [h2]

/-- Region 1 leaves Z in its output array. -/
theorem after_region1 (c : Dev nD) : (dat1 (V3 m ρ) c).arrAt 4 cfg1.N = layer1 m c := by
  rw [final_l1 (V3 m ρ) c, V3_a, V3_u, V3_w, V3_b]; rfl

/-! ## Region 2 is entered from the adjacency and Z -/

theorem V4_a (c : Dev nD) : V4 m ρ c main_arg1 = m ((c : Thread nD τ).loc main_arg1) :=
  ((W4_arr m ρ c 0).trans (((dat1 (V3 m ρ) c).arrAt_in 0 rfl _).trans (A_eq1 (V3 m ρ) c 0))).trans (V3_a m ρ c)
theorem V4_z (c : Dev nD) : V4 m ρ c main_call0_v4 = layer1 m c :=
  (W4_arr m ρ c 4).trans (after_region1 m ρ c)

/-- Region 2 leaves the result in its output array, -/
theorem after_region2 (c : Dev nD) : (dat2 (V4 m ρ) c).arrAt 2 cfg2.N = result m c := by
  rw [final_l2 (V4 m ρ) c, V4_a, V4_z]; rfl

/-- which is what the result buffer holds at the last boundary. -/
theorem V5_out (c : Dev nD) : V5 m ρ c main_v0 = result m c :=
  (W5_arr m ρ c 2).trans (after_region2 m ρ c)

/-- THE RUN, READ: every weakly fair execution of the kernel's @main terminates, nothing faulting, with the result buffer at
    `A · (relu(A · (X · W₁ + b₁)) · W₂ + b₂)` of the launch contents and the arguments unchanged. -/
theorem run : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (V5_out m ρ c), (h c).2⟩) (Cert.KernelIdeal.GenRun.run_main m ρ)

end Cert.KernelIdeal.Net

end
-- ==== Proof.RefStages.lean ====
/-
  The reference computes the same function, stage by stage. Over the extended reals the reference's operations read at an
  entry are: a product is the row-by-column sum, the broadcast bias is the bias entry of the column, relu is the maximum with
  zero. So its fourth value (X · W₁ + b₁), its tenth (relu(A · ·) · W₂ + b₂) and its result (A · ·) are the three closed forms
  the kernel's regions leave, with the same association of every sum: no law of arithmetic is used, only that both sides
  are one expression in the entries of the arguments.
-/
import proofs.«154238_g27539330302397_cont_9to1_2131_2_alg».proof.Proof.Gen.ReferenceIdeal.Read
import proofs.«154238_g27539330302397_cont_9to1_2131_2_alg».proof.Proof.Features
import proofs.«154238_g27539330302397_cont_9to1_2131_2_alg».proof.Proof.Layer1
import proofs.«154238_g27539330302397_cont_9to1_2131_2_alg».proof.Proof.Layer2
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx

namespace Cert.ReferenceIdeal.Stages

open Cert.ReferenceIdeal Cert.ReferenceIdeal.Read Cert.KernelIdeal.Pay
open Cert.KernelIdeal.Features Cert.KernelIdeal.Layer1 Cert.KernelIdeal.Layer2

/-- The reshaped bias row at column c of an entry is the bias entry the reference's two broadcasts read there. -/
theorem rowOf_biasAt (b : S128.Idx → EReal) (i : S10000x128.Idx) :
    rowOf b (biasAt i) = b (idx_main_v1 (idx_main_v2 i)) := by
  refine (shapeCast_addUnit_apply ![128] b _ (biasAt i)).trans (congrArg b (funext fun a => Fin.ext ?_))
  match a with
  | ⟨0, _⟩ => rfl

/-- The reference's `X · W₁ + b₁` is the feature region's closed form. -/
theorem hidden_eq (x : S10000x128.Idx → EReal) (w1 : S128x128.Idx → EReal) (b1 : S128.Idx → EReal) :
    affineXW x w1 (rowOf b1) = val_main_v3 (F := Ideal) x w1 b1 := by
  funext i
  rw [val_main_v3_apply, val_main_v0_apply, val_main_v2_apply, val_main_v1_apply]
  unfold affineXW
  rw [rowOf_biasAt]
  rfl

/-- The same for the second bias, which the reference broadcasts by its own two operations. -/
theorem rowOf_biasAt' (b : S128.Idx → EReal) (i : S10000x128.Idx) :
    rowOf b (biasAt i) = b (idx_main_v7 (idx_main_v8 i)) := by
  refine (shapeCast_addUnit_apply ![128] b _ (biasAt i)).trans (congrArg b (funext fun a => Fin.ext ?_))
  match a with
  | ⟨0, _⟩ => rfl

/-- The reference's `relu(A · U) · W₂ + b₂`, with U its own `X · W₁ + b₁`, is the first layer's closed form. -/
theorem layer_eq (x : S10000x128.Idx → EReal) (A : S10000x10000.Idx → EReal) (w1 : S128x128.Idx → EReal) (b1 : S128.Idx → EReal)
    (w2 : S128x128.Idx → EReal) (b2 : S128.Idx → EReal) :
    layerAUW A (val_main_v3 (F := Ideal) x w1 b1) w2 (rowOf b2) = val_main_v9 (F := Ideal) x A w1 b1 w2 b2 := by
  funext i
  rw [val_main_v9_apply, val_main_v6_apply, val_main_v8_apply, val_main_v7_apply, Ideal.addf_def]
  unfold layerAUW
  rw [rowOf_biasAt']
  refine congrArg (· + _) (Finset.sum_congr rfl fun j _ => ?_)
  rw [val_main_v5_apply, val_main_v4_apply, val_main_call0_v0_apply, val_main_call0_cst_apply, Ideal.maximumf_def, Ideal.ofBits_def]

/-- The reference's result `A · Z`, with Z its own tenth value, is the output layer's closed form. -/
theorem result_eq (x : S10000x128.Idx → EReal) (A : S10000x10000.Idx → EReal) (w1 : S128x128.Idx → EReal) (b1 : S128.Idx → EReal)
    (w2 : S128x128.Idx → EReal) (b2 : S128.Idx → EReal) :
    prodAZ A (val_main_v9 (F := Ideal) x A w1 b1 w2 b2) = val_main_v10 (F := Ideal) x A w1 b1 w2 b2 := by
  funext i
  rw [val_main_v10_apply]
  rfl

end Cert.ReferenceIdeal.Stages

end
-- ==== Proof.lean ====
/-
  The certificate of a two-layer dense-adjacency graph convolution
      out = A · (relu(A · (X · W₁ + b₁)) · W₂ + b₂)
  computed by three pipelined kernels (the features X · W₁ + b₁ in blocks of 1000 rows; relu(A · U) · W₂ + b₂ and A · Z in
  blocks of 400 adjacency rows), against the same expression written with whole-array products.
  Over the extended reals every change of float format is the identity and a product accumulated from zero is the plain
  row-by-column sum, so both programs compute, entry by entry, literally the same nested sums: the kernel side is read off its
  run region by region (each region's output array is its closed form of what the region is entered from), the reference side
  off its run operation by operation, and the two meet stage by stage. No arithmetic law is needed, so the precondition
  (finite inputs) is never opened. The three frame claims are the generated runs; nothing was idealized away, so the
  idealization claim is trivial.
-/
import proofs.«154238_g27539330302397_cont_9to1_2131_2_alg».proof.Defs
import proofs.«154238_g27539330302397_cont_9to1_2131_2_alg».proof.Proof.Gen.Kernel
import proofs.«154238_g27539330302397_cont_9to1_2131_2_alg».proof.Proof.Gen.Kernel.Frame
import proofs.«154238_g27539330302397_cont_9to1_2131_2_alg».proof.Proof.Gen.KernelIdeal
import proofs.«154238_g27539330302397_cont_9to1_2131_2_alg».proof.Proof.Gen.KernelIdeal.Frame
import proofs.«154238_g27539330302397_cont_9to1_2131_2_alg».proof.Proof.Gen.ReferenceIdeal
import proofs.«154238_g27539330302397_cont_9to1_2131_2_alg».proof.Proof.Gen.ReferenceIdeal.Run
import proofs.«154238_g27539330302397_cont_9to1_2131_2_alg».proof.Proof.Gen.ReferenceIdeal.Read
import proofs.«154238_g27539330302397_cont_9to1_2131_2_alg».proof.Proof.Gen.Pre_finite_inputs
import proofs.«154238_g27539330302397_cont_9to1_2131_2_alg».proof.Proof.Net
import proofs.«154238_g27539330302397_cont_9to1_2131_2_alg».proof.Proof.RefStages

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the six arguments both programs end with the result at `A · (relu(A · (X · W₁ + b₁)) · W₂ + b₂)`:
    the kernel by its run read region by region, the reference by its run read stage by stage. -/
theorem algebraic : Cert.algebraic_KernelIdeal_ReferenceIdeal := by
  intro m ρ m' ρ' _ hagree
  refine ⟨fun c => Cert.KernelIdeal.Net.result m c, Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [e0, e1, e2, e3, e4, e5, Cert.ReferenceIdeal.Read.val_main_v10_eq]
  show _ = Cert.KernelIdeal.Net.result m c
  unfold Cert.KernelIdeal.Net.result Cert.KernelIdeal.Net.layer1 Cert.KernelIdeal.Net.hidden
  rw [Cert.ReferenceIdeal.Stages.hidden_eq, Cert.ReferenceIdeal.Stages.layer_eq, Cert.ReferenceIdeal.Stages.result_eq]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
